-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024 .f32) (main_arg13 : FVec F S1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 30
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S4096x1024.size a
  hwx0_15 : ∀ i : grid0.Coords, EltTy.bits .f32 = 32 ∨ (Rect.block (s := S4096x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S4096x1024.size a
  hwx0_16 : ∀ i : grid0.Coords, EltTy.bits .f32 = 32 ∨ (Rect.block (s := S4096x1024) S256x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x1024.size a ≤ S4096x1024.size a
  hwx0_17 : ∀ i : grid0.Coords, EltTy.bits .f32 = 32 ∨ (Rect.block (s := S4096x1024) S256x1024.size (cc0_transform_17 i) (hinb0_17 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v11) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v12_1) S256x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v12_2) S256x1024.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_cst_5 : Ref sig .tc := ⟨.hbm, 48, rfl⟩
abbrev main_cst_6 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v22 : Ref sig .tc := ⟨.hbm, 55, rfl⟩
abbrev main_cst_7 : Ref sig .tc := ⟨.hbm, 56, rfl⟩
abbrev main_v23 : Ref sig .tc := ⟨.hbm, 57, rfl⟩
abbrev main_v24 : Ref sig .tc := ⟨.hbm, 58, rfl⟩
abbrev main_cst_8 : Ref sig .tc := ⟨.hbm, 59, rfl⟩
abbrev main_v25 : Ref sig .tc := ⟨.hbm, 60, rfl⟩
abbrev main_v26 : Ref sig .tc := ⟨.hbm, 61, rfl⟩
abbrev main_cst_9 : Ref sig .tc := ⟨.hbm, 62, rfl⟩
abbrev main_cst_10 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.CellSpec.lean ====
/-
  One step of an LSTM cell, as functions on the extended reals.

  For a batch row with input x and previous hidden state h, gate g has the pre-activation
      z_g(j) = (Σ_k x(k)·W_g(k, j) + Σ_k h(k)·U_g(k, j)) + b_g(j).
  The forget, input and output gates pass through the hard sigmoid  σ(z) = min(1, max(0, 0.2·z + 0.5))  (the four
  constants are the binary32 values of 0.2, 0.5, 0 and 1), the candidate through tanh. The new cell state is
      c' = σ(z_f)·c + σ(z_i)·tanh(z_c)
  and the new hidden state  h' = σ(z_o)·tanh(c').
-/
import Idealize.ShloMosaic.PureOps.Ideal
import Idealize.ShloMosaic.Lib.ValueIdx

noncomputable section

namespace Cert.Lstm

open Idealize.ShloMosaic Idealize.ShloMosaic.ValueIdx

/-- A gate's pre-activation at unit `j`: the row `xr` of the input against column `j` of `W`, plus the row `hr` of the
    previous hidden state against column `j` of `U`, plus the bias. -/
def preact (xr hr : Fin 1024 → EReal) (W U : Fin 1024 → Fin 1024 → EReal) (b : Fin 1024 → EReal) (j : Fin 1024) : EReal :=
  (∑ k : Fin 1024, xr k * W k j + ∑ k : Fin 1024, hr k * U k j) + b j

/-- The hard sigmoid `min(1, max(0, 0.2·z + 0.5))`, its constants the binary32 words. -/
def hardSigmoid (z : EReal) : EReal :=
  min (Ideal.ofBits .f32 0x3F800000#32)
    (max (Ideal.ofBits .f32 0x00000000#32) (Ideal.ofBits .f32 0x3E4CCCCD#32 * z + Ideal.ofBits .f32 0x3F000000#32))

/-- The new cell state from the three pre-activations and the old cell state. -/
def cellAt (zf zi zc c : EReal) : EReal := hardSigmoid zf * c + hardSigmoid zi * Ideal.tanh zc

/-- The new hidden state from the output gate's pre-activation and the new cell state. -/
def hiddenAt (zo c' : EReal) : EReal := hardSigmoid zo * Ideal.tanh c'

/-- Row `r` of a matrix with 1024 columns. -/
abbrev rowOf {a : ℕ} (x : (⟨2, ![a, 1024]⟩ : Shape).Idx → EReal) (r : Fin a) : Fin 1024 → EReal := fun k => x (ix2 r k)
/-- A 1024×1024 matrix by its two coordinates. -/
abbrev matOf (W : (⟨2, ![1024, 1024]⟩ : Shape).Idx → EReal) : Fin 1024 → Fin 1024 → EReal := fun k j => W (ix2 k j)
/-- A vector of 1024 entries by its coordinate. -/
abbrev vecOf (b : (⟨1, ![1024]⟩ : Shape).Idx → EReal) : Fin 1024 → EReal := fun j => b (ix1 j)

/-- The new cell state of the whole batch, entry by entry. -/
def newCell (x c h : (⟨2, ![4096, 1024]⟩ : Shape).Idx → EReal)
    (Wf Wi Wc Uf Ui Uc : (⟨2, ![1024, 1024]⟩ : Shape).Idx → EReal) (bf bi bc : (⟨1, ![1024]⟩ : Shape).Idx → EReal) :
    (⟨2, ![4096, 1024]⟩ : Shape).Idx → EReal := fun i =>
  cellAt (preact (rowOf x (i 0)) (rowOf h (i 0)) (matOf Wf) (matOf Uf) (vecOf bf) (i 1))
    (preact (rowOf x (i 0)) (rowOf h (i 0)) (matOf Wi) (matOf Ui) (vecOf bi) (i 1))
    (preact (rowOf x (i 0)) (rowOf h (i 0)) (matOf Wc) (matOf Uc) (vecOf bc) (i 1)) (c i)

/-- The new hidden state of the whole batch, entry by entry. -/
def newHidden (x c h : (⟨2, ![4096, 1024]⟩ : Shape).Idx → EReal)
    (Wf Wi Wo Wc Uf Ui Uo Uc : (⟨2, ![1024, 1024]⟩ : Shape).Idx → EReal) (bf bi bo bc : (⟨1, ![1024]⟩ : Shape).Idx → EReal) :
    (⟨2, ![4096, 1024]⟩ : Shape).Idx → EReal := fun i =>
  hiddenAt (preact (rowOf x (i 0)) (rowOf h (i 0)) (matOf Wo) (matOf Uo) (vecOf bo) (i 1))
    (newCell x c h Wf Wi Wc Uf Ui Uc bf bi bc i)

/-- The new cell state at row `r`, unit `q`. -/
theorem newCell_ix2 (x c h : (⟨2, ![4096, 1024]⟩ : Shape).Idx → EReal)
    (Wf Wi Wc Uf Ui Uc : (⟨2, ![1024, 1024]⟩ : Shape).Idx → EReal) (bf bi bc : (⟨1, ![1024]⟩ : Shape).Idx → EReal)
    (r : Fin 4096) (q : Fin 1024) :
    newCell x c h Wf Wi Wc Uf Ui Uc bf bi bc (ix2 r q)
      = cellAt (preact (rowOf x r) (rowOf h r) (matOf Wf) (matOf Uf) (vecOf bf) q)
          (preact (rowOf x r) (rowOf h r) (matOf Wi) (matOf Ui) (vecOf bi) q)
          (preact (rowOf x r) (rowOf h r) (matOf Wc) (matOf Uc) (vecOf bc) q) (c (ix2 r q)) := rfl

/-- The new hidden state at row `r`, unit `q`. -/
theorem newHidden_ix2 (x c h : (⟨2, ![4096, 1024]⟩ : Shape).Idx → EReal)
    (Wf Wi Wo Wc Uf Ui Uo Uc : (⟨2, ![1024, 1024]⟩ : Shape).Idx → EReal) (bf bi bo bc : (⟨1, ![1024]⟩ : Shape).Idx → EReal)
    (r : Fin 4096) (q : Fin 1024) :
    newHidden x c h Wf Wi Wo Wc Uf Ui Uo Uc bf bi bo bc (ix2 r q)
      = hiddenAt (preact (rowOf x r) (rowOf h r) (matOf Wo) (matOf Uo) (vecOf bo) q)
          (cellAt (preact (rowOf x r) (rowOf h r) (matOf Wf) (matOf Uf) (vecOf bf) q)
            (preact (rowOf x r) (rowOf h r) (matOf Wi) (matOf Ui) (vecOf bi) q)
            (preact (rowOf x r) (rowOf h r) (matOf Wc) (matOf Uc) (vecOf bc) q) (c (ix2 r q))) := rfl

end Cert.Lstm

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KernelCell.lean ====
/-
  What the kernel's body computes on one tile of 256 batch rows, entry by entry.

  The body holds a tile of the input, of the previous hidden state and of the previous cell state, the eight weight matrices
  whole and the four biases as one row each. Each gate's pre-activation is two products into a zero accumulator, added, plus
  the bias row repeated down the tile; at the ideal values the narrowing of the operands is the identity and each product's
  entry (p, q) is the sum over the contracted coordinate. The hard sigmoid, tanh and the gating are pointwise, so the tile's
  entry (p, q) of the new cell state and of the new hidden state is the scalar cell step at the three (four) pre-activations
  of row p and unit q.
-/
import proofs.«165920_j40956808135044_1_alg».proof.Proof.Gen.KernelIdeal.Skeleton
import proofs.«165920_j40956808135044_1_alg».proof.Proof.CellSpec
import proofs.«165920_j40956808135044_1_alg».proof.Proof.LibDenseLayer
import Idealize.ShloMosaic.Lib.Pipeline.Value
import Idealize.ShloMosaic.Lib.ValueLayout
import Idealize.ShloMosaic.Lib.ValueIdx

noncomputable section

namespace Cert.KernelIdeal.Cell

open Cert.KernelIdeal Cert.KernelIdeal.Gen Idealize.ShloMosaic Idealize.ShloMosaic.ValueIdx
open Idealize.ShloMosaic.DenseLayer Cert.Lstm

/-- A bias held as one row `[1, 1024]`, by its unit. -/
abbrev biasRow (b : Vec Ideal S1x1024 .f32) : Fin 1024 → EReal := fun j => b (ix2 (0 : Fin 1) j)

/-- A gate's pre-activation on a tile, read at `(p, q)`: the two products into zero accumulators are the two sums over
    the contracted coordinate, and the bias row repeated down the tile reads its entry `q`. -/
theorem gate_apply (A B : FVec Ideal S256x1024 .bf16) (W U : FVec Ideal S1024x1024 .bf16) (b : FVec Ideal S1x1024 .f32)
    (p : Fin 256) (q : Fin 1024) :
    addf (addf
        (matmul dot_S256x1024_S1024x1024_S256x1024_1_0_0_1_n_n none A
          (shapeCast S1024x1024 W shapeCasts_S1024x1024_S1024x1024) (constant (F := Ideal) S256x1024 .f32 0x00000000#32))
        (matmul dot_S256x1024_S1024x1024_S256x1024_1_0_0_1_n_n none B
          (shapeCast S1024x1024 U shapeCasts_S1024x1024_S1024x1024) (constant (F := Ideal) S256x1024 .f32 0x00000000#32)))
      (broadcastTo S256x1024 (shapeCast S1x1024 b shapeCasts_S1x1024_S1x1024) broadcasts_S1x1024_S256x1024) (ix2 p q)
    = preact (rowOf A p) (rowOf B p) (matOf W) (matOf U) (biasRow b) q := by
  rw [addf_apply, addf_apply, shapeCast_self, shapeCast_self, shapeCast_self, broadcastTo_1b_ab_apply]
  have e1 := matmul_rows_apply (m := 256) (k := 1024) (n := 1024)
    dot_S256x1024_S1024x1024_S256x1024_1_0_0_1_n_n_wf none A W p q
  have e2 := matmul_rows_apply (m := 256) (k := 1024) (n := 1024)
    dot_S256x1024_S1024x1024_S256x1024_1_0_0_1_n_n_wf none B U p q
  unfold preact
  exact congrArg₂ (· + ·) (congrArg₂ (· + ·) e1 e2) rfl

/-- The forget gate's pre-activation on a tile. -/
theorem pay5_apply (x0 x1 : Vec Ideal S256x1024 .f32) (w u : Vec Ideal S1024x1024 .bf16) (b : Vec Ideal S1x1024 .f32)
    (p : Fin 256) (q : Fin 1024) :
    k0_pay5 x0 x1 w u b (ix2 p q) = preact (rowOf x0 p) (rowOf x1 p) (matOf w) (matOf u) (biasRow b) q :=
  gate_apply (k0_pay3 x0) (k0_pay4 x1) w u b p q

/-- The input gate's pre-activation on a tile. -/
theorem pay6_apply (x0 x1 : Vec Ideal S256x1024 .f32) (w u : Vec Ideal S1024x1024 .bf16) (b : Vec Ideal S1x1024 .f32)
    (p : Fin 256) (q : Fin 1024) :
    k0_pay6 x0 x1 w u b (ix2 p q) = preact (rowOf x0 p) (rowOf x1 p) (matOf w) (matOf u) (biasRow b) q :=
  gate_apply (k0_pay3 x0) (k0_pay4 x1) w u b p q

/-- The candidate's pre-activation on a tile. -/
theorem pay9_apply (x0 x1 : Vec Ideal S256x1024 .f32) (w u : Vec Ideal S1024x1024 .bf16) (b : Vec Ideal S1x1024 .f32)
    (p : Fin 256) (q : Fin 1024) :
    k0_pay9 (k0_pay3 x0) (k0_pay4 x1) w u b (ix2 p q)
      = preact (rowOf x0 p) (rowOf x1 p) (matOf w) (matOf u) (biasRow b) q :=
  gate_apply (k0_pay3 x0) (k0_pay4 x1) w u b p q

/-- The output gate's value before the clamp, on a tile: `0.2·z_o + 0.5`. -/
theorem pay12_apply (x0 x1 : Vec Ideal S256x1024 .f32) (w u : Vec Ideal S1024x1024 .bf16) (b : Vec Ideal S1x1024 .f32)
    (p : Fin 256) (q : Fin 1024) :
    k0_pay12 (k0_pay4 x1) (k0_pay7 x0 w) (k0_pay8 u) b (ix2 p q)
      = Ideal.ofBits .f32 0x3E4CCCCD#32 * preact (rowOf x0 p) (rowOf x1 p) (matOf w) (matOf u) (biasRow b) q
        + Ideal.ofBits .f32 0x3F000000#32 :=
  congrArg (fun z => Ideal.ofBits .f32 0x3E4CCCCD#32 * z + Ideal.ofBits .f32 0x3F000000#32)
    (gate_apply (k0_pay3 x0) (k0_pay4 x1) w u b p q)

/-- The clamp of `0.2·z + 0.5` to `[0, 1]` is the hard sigmoid, entry by entry (forget gate). -/
theorem pay10_apply (z : FVec Ideal S256x1024 .f32) (i : S256x1024.Idx) : k0_pay10 z i = hardSigmoid (z i) := rfl

/-- The same for the input gate. -/
theorem pay11_apply (z : FVec Ideal S256x1024 .f32) (i : S256x1024.Idx) : k0_pay11 z i = hardSigmoid (z i) := rfl

/-- The new cell state on a tile, entry by entry. -/
theorem pay1_apply (c z f g : FVec Ideal S256x1024 .f32) (i : S256x1024.Idx) :
    k0_pay1 c z f g i = f i * c i + g i * Ideal.tanh (z i) := rfl

/-- The new hidden state on a tile, entry by entry, from the output gate's value before the clamp. -/
theorem pay2_apply (c z f g o : FVec Ideal S256x1024 .f32) (i : S256x1024.Idx) :
    k0_pay2 c z f g o (Scalar.ofBits .f32 0x00000000#32) (Scalar.ofBits .f32 0x3F800000#32) i
      = min (Ideal.ofBits .f32 0x3F800000#32) (max (Ideal.ofBits .f32 0x00000000#32) (o i)) * Ideal.tanh (k0_pay1 c z f g i) := rfl

/-- THE TILE'S NEW CELL STATE at `(p, q)`: the scalar cell step at the pre-activations of row `p`, unit `q`. -/
theorem cellTile_apply (x0 x1 x2 : Vec Ideal S256x1024 .f32) (wf wi wc uf ui uc : Vec Ideal S1024x1024 .bf16)
    (bf bi bc : Vec Ideal S1x1024 .f32) (p : Fin 256) (q : Fin 1024) :
    k0_pay1 x2 (k0_pay9 (k0_pay3 x0) (k0_pay4 x1) wc uc bc) (k0_pay10 (k0_pay5 x0 x1 wf uf bf))
        (k0_pay11 (k0_pay6 x0 x1 wi ui bi)) (ix2 p q)
      = cellAt (preact (rowOf x0 p) (rowOf x1 p) (matOf wf) (matOf uf) (biasRow bf) q)
          (preact (rowOf x0 p) (rowOf x1 p) (matOf wi) (matOf ui) (biasRow bi) q)
          (preact (rowOf x0 p) (rowOf x1 p) (matOf wc) (matOf uc) (biasRow bc) q) (x2 (ix2 p q)) := by
  rw [pay1_apply, pay10_apply, pay11_apply, pay5_apply, pay6_apply, pay9_apply]
  rfl

/-- THE TILE'S NEW HIDDEN STATE at `(p, q)`. -/
theorem hiddenTile_apply (x0 x1 x2 : Vec Ideal S256x1024 .f32) (wf wi wo wc uf ui uo uc : Vec Ideal S1024x1024 .bf16)
    (bf bi bo bc : Vec Ideal S1x1024 .f32) (p : Fin 256) (q : Fin 1024) :
    k0_pay2 x2 (k0_pay9 (k0_pay3 x0) (k0_pay4 x1) wc uc bc) (k0_pay10 (k0_pay5 x0 x1 wf uf bf))
        (k0_pay11 (k0_pay6 x0 x1 wi ui bi)) (k0_pay12 (k0_pay4 x1) (k0_pay7 x0 wo) (k0_pay8 uo) bo)
        (Scalar.ofBits .f32 0x00000000#32) (Scalar.ofBits .f32 0x3F800000#32) (ix2 p q)
      = hiddenAt (preact (rowOf x0 p) (rowOf x1 p) (matOf wo) (matOf uo) (biasRow bo) q)
          (cellAt (preact (rowOf x0 p) (rowOf x1 p) (matOf wf) (matOf uf) (biasRow bf) q)
            (preact (rowOf x0 p) (rowOf x1 p) (matOf wi) (matOf ui) (biasRow bi) q)
            (preact (rowOf x0 p) (rowOf x1 p) (matOf wc) (matOf uc) (biasRow bc) q) (x2 (ix2 p q))) := by
  rw [pay2_apply, cellTile_apply, pay12_apply]
  rfl

end Cert.KernelIdeal.Cell

end
-- ==== Proof.KernelBlocks.lean ====
/-
  From tiles to the whole batch.

  The grid has 16 points; at point t the three batch operands' blocks are rows 256·t … 256·t + 255 of their arrays and the
  weights' and biases' blocks are the whole arrays (the narrowed copies of the weights are the weights at the ideal values,
  the one-row copies of the biases read the bias). So what point t writes back is rows 256·t … 256·t + 255 of the cell step
  of the whole batch; the 16 blocks tile the 4096 rows, hence each result array ends at the cell step of the batch.
-/
import proofs.«165920_j40956808135044_1_alg».proof.Proof.Gen.KernelIdeal.Value
import proofs.«165920_j40956808135044_1_alg».proof.Proof.KernelCell
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Value Cert.KernelIdeal.Cell
open Idealize.ShloMosaic Idealize.ShloMosaic.TcCoe Idealize.SL.Sem Idealize.ShloMosaic.ValueIdx Cert.Lstm
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The index maps, decided over the 16 grid points -/

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows2 : ∀ t : Fin cfg0.N, win0_2.index t (0 : Fin 2) = t.val ∧ win0_2.index t (1 : Fin 2) = 0 :=
  (by decide +kernel : ∀ t : Fin grid0.N, _)
theorem idx_rows15 : ∀ t : Fin cfg0.N, win0_15.index t (0 : Fin 2) = t.val ∧ win0_15.index t (1 : Fin 2) = 0 :=
  (by decide +kernel : ∀ t : Fin grid0.N, _)
theorem idx_rows16 : ∀ t : Fin cfg0.N, win0_16.index t (0 : Fin 2) = t.val ∧ win0_16.index t (1 : Fin 2) = 0 :=
  (by decide +kernel : ∀ t : Fin grid0.N, _)
theorem idx_rows17 : ∀ t : Fin cfg0.N, win0_17.index t (0 : Fin 2) = t.val ∧ win0_17.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole10 : ∀ t : Fin cfg0.N, win0_10.index t (0 : Fin 2) = 0 ∧ win0_10.index t (1 : Fin 2) = 0 :=
  (by decide +kernel : ∀ t : Fin grid0.N, _)
theorem idx_whole11 : ∀ t : Fin cfg0.N, win0_11.index t (0 : Fin 2) = 0 ∧ win0_11.index t (1 : Fin 2) = 0 :=
  (by decide +kernel : ∀ t : Fin grid0.N, _)
theorem idx_whole12 : ∀ t : Fin cfg0.N, win0_12.index t (0 : Fin 2) = 0 ∧ win0_12.index t (1 : Fin 2) = 0 :=
  (by decide +kernel : ∀ t : Fin grid0.N, _)
theorem idx_whole13 : ∀ t : Fin cfg0.N, win0_13.index t (0 : Fin 2) = 0 ∧ win0_13.index t (1 : Fin 2) = 0 :=
  (by decide +kernel : ∀ t : Fin grid0.N, _)
theorem idx_whole14 : ∀ t : Fin cfg0.N, win0_14.index t (0 : Fin 2) = 0 ∧ win0_14.index t (1 : Fin 2) = 0 :=
  (by decide +kernel : ∀ t : Fin grid0.N, _)

/-- Row `p` of the tile at point `t` is row `256·t + p` of the batch. -/
abbrev tileRow (t : Fin cfg0.N) (p : Fin 256) : Fin 4096 :=
  ⟨256 * t.val + p.val, by have h : t.val < 16 := t.isLt; have := p.isLt; omega⟩

/-! ## Each window's block against its argument array -/

/-- Window 0's block at point `t` is rows `256·t … 256·t + 255` of the input. -/
theorem tile0_apply (c : Dev nD) (t : Fin cfg0.N) (p : Fin 256) (k : Fin 1024) :
    (iblk m c 0 t : Vec Ideal S256x1024 .f32) (ix2 p k) = (m ((c : Thread nD τ).loc main_arg0)) (ix2 (tileRow t p) k) := by
  refine Eq.trans ?_ (congrFun (V_main_arg0 m c) _)
  show V m c main_arg0 (((cfg0.win 0).blk t).view.emb (ix2 p k)) = V m c main_arg0 (ix2 (tileRow t p) k)
  refine congrArg _ (funext fun a => Fin.ext ?_)
  obtain ⟨e0, e1⟩ := idx_rows0 t
  match a with
  | ⟨0, _⟩ => show win0_0.index t (0 : Fin 2) * 256 + 1 * p.val = 256 * t.val + p.val; omega
  | ⟨1, _⟩ => show win0_0.index t (1 : Fin 2) * 1024 + 1 * k.val = k.val; omega

/-- Window 1's block at point `t` is rows `256·t … 256·t + 255` of the previous hidden state. -/
theorem tile1_apply (c : Dev nD) (t : Fin cfg0.N) (p : Fin 256) (k : Fin 1024) :
    (iblk m c 1 t : Vec Ideal S256x1024 .f32) (ix2 p k) = (m ((c : Thread nD τ).loc main_arg2)) (ix2 (tileRow t p) k) := by
  refine Eq.trans ?_ (congrFun (V_main_arg2 m c) _)
  show V m c main_arg2 (((cfg0.win 1).blk t).view.emb (ix2 p k)) = V m c main_arg2 (ix2 (tileRow t p) k)
  refine congrArg _ (funext fun a => Fin.ext ?_)
  obtain ⟨e0, e1⟩ := idx_rows1 t
  match a with
  | ⟨0, _⟩ => show win0_1.index t (0 : Fin 2) * 256 + 1 * p.val = 256 * t.val + p.val; omega
  | ⟨1, _⟩ => show win0_1.index t (1 : Fin 2) * 1024 + 1 * k.val = k.val; omega

/-- Window 2's block at point `t` is rows `256·t … 256·t + 255` of the previous cell state. -/
theorem tile2_apply (c : Dev nD) (t : Fin cfg0.N) (p : Fin 256) (k : Fin 1024) :
    (iblk m c 2 t : Vec Ideal S256x1024 .f32) (ix2 p k) = (m ((c : Thread nD τ).loc main_arg1)) (ix2 (tileRow t p) k) := by
  refine Eq.trans ?_ (congrFun (V_main_arg1 m c) _)
  show V m c main_arg1 (((cfg0.win 2).blk t).view.emb (ix2 p k)) = V m c main_arg1 (ix2 (tileRow t p) k)
  refine congrArg _ (funext fun a => Fin.ext ?_)
  obtain ⟨e0, e1⟩ := idx_rows2 t
  match a with
  | ⟨0, _⟩ => show win0_2.index t (0 : Fin 2) * 256 + 1 * p.val = 256 * t.val + p.val; omega
  | ⟨1, _⟩ => show win0_2.index t (1 : Fin 2) * 1024 + 1 * k.val = k.val; omega

/-- The narrowed copy of argument 3 that window 3 stages is, at the ideal values, the argument itself. -/
theorem V_w3 (c : Dev nD) : (V m c main_v0 : S1024x1024.Idx → EReal) = (m ((c : Thread nD τ).loc main_arg3)) := by
  dsimp only [Gen.V, Gen.hostOps0]; after_results; rfl

/-- Window 3's block at any point is the whole matrix. -/
theorem tile3_apply (c : Dev nD) (t : Fin cfg0.N) (k j : Fin 1024) :
    (iblk m c 3 t : Vec Ideal S1024x1024 .bf16) (ix2 k j) = (m ((c : Thread nD τ).loc main_arg3)) (ix2 k j) := by
  refine Eq.trans ?_ (congrFun (V_w3 m c) _)
  show V m c main_v0 (((cfg0.win 3).blk t).view.emb (ix2 k j)) = V m c main_v0 (ix2 k j)
  refine congrArg _ (funext fun a => Fin.ext ?_)
  obtain ⟨e0, e1⟩ := idx_whole3 t
  match a with
  | ⟨0, _⟩ => show win0_3.index t (0 : Fin 2) * 1024 + 1 * k.val = k.val; omega
  | ⟨1, _⟩ => show win0_3.index t (1 : Fin 2) * 1024 + 1 * j.val = j.val; omega

/-- The narrowed copy of argument 4 that window 4 stages is, at the ideal values, the argument itself. -/
theorem V_w4 (c : Dev nD) : (V m c main_v1 : S1024x1024.Idx → EReal) = (m ((c : Thread nD τ).loc main_arg4)) := by
  dsimp only [Gen.V, Gen.hostOps0]; after_results; rfl

/-- Window 4's block at any point is the whole matrix. -/
theorem tile4_apply (c : Dev nD) (t : Fin cfg0.N) (k j : Fin 1024) :
    (iblk m c 4 t : Vec Ideal S1024x1024 .bf16) (ix2 k j) = (m ((c : Thread nD τ).loc main_arg4)) (ix2 k j) := by
  refine Eq.trans ?_ (congrFun (V_w4 m c) _)
  show V m c main_v1 (((cfg0.win 4).blk t).view.emb (ix2 k j)) = V m c main_v1 (ix2 k j)
  refine congrArg _ (funext fun a => Fin.ext ?_)
  obtain ⟨e0, e1⟩ := idx_whole4 t
  match a with
  | ⟨0, _⟩ => show win0_4.index t (0 : Fin 2) * 1024 + 1 * k.val = k.val; omega
  | ⟨1, _⟩ => show win0_4.index t (1 : Fin 2) * 1024 + 1 * j.val = j.val; omega

/-- The narrowed copy of argument 5 that window 5 stages is, at the ideal values, the argument itself. -/
theorem V_w5 (c : Dev nD) : (V m c main_v2 : S1024x1024.Idx → EReal) = (m ((c : Thread nD τ).loc main_arg5)) := by
  dsimp only [Gen.V, Gen.hostOps0]; after_results; rfl

/-- Window 5's block at any point is the whole matrix. -/
theorem tile5_apply (c : Dev nD) (t : Fin cfg0.N) (k j : Fin 1024) :
    (iblk m c 5 t : Vec Ideal S1024x1024 .bf16) (ix2 k j) = (m ((c : Thread nD τ).loc main_arg5)) (ix2 k j) := by
  refine Eq.trans ?_ (congrFun (V_w5 m c) _)
  show V m c main_v2 (((cfg0.win 5).blk t).view.emb (ix2 k j)) = V m c main_v2 (ix2 k j)
  refine congrArg _ (funext fun a => Fin.ext ?_)
  obtain ⟨e0, e1⟩ := idx_whole5 t
  match a with
  | ⟨0, _⟩ => show win0_5.index t (0 : Fin 2) * 1024 + 1 * k.val = k.val; omega
  | ⟨1, _⟩ => show win0_5.index t (1 : Fin 2) * 1024 + 1 * j.val = j.val; omega

/-- The narrowed copy of argument 6 that window 6 stages is, at the ideal values, the argument itself. -/
theorem V_w6 (c : Dev nD) : (V m c main_v3 : S1024x1024.Idx → EReal) = (m ((c : Thread nD τ).loc main_arg6)) := by
  dsimp only [Gen.V, Gen.hostOps0]; after_results; rfl

/-- Window 6's block at any point is the whole matrix. -/
theorem tile6_apply (c : Dev nD) (t : Fin cfg0.N) (k j : Fin 1024) :
    (iblk m c 6 t : Vec Ideal S1024x1024 .bf16) (ix2 k j) = (m ((c : Thread nD τ).loc main_arg6)) (ix2 k j) := by
  refine Eq.trans ?_ (congrFun (V_w6 m c) _)
  show V m c main_v3 (((cfg0.win 6).blk t).view.emb (ix2 k j)) = V m c main_v3 (ix2 k j)
  refine congrArg _ (funext fun a => Fin.ext ?_)
  obtain ⟨e0, e1⟩ := idx_whole6 t
  match a with
  | ⟨0, _⟩ => show win0_6.index t (0 : Fin 2) * 1024 + 1 * k.val = k.val; omega
  | ⟨1, _⟩ => show win0_6.index t (1 : Fin 2) * 1024 + 1 * j.val = j.val; omega

/-- The narrowed copy of argument 7 that window 7 stages is, at the ideal values, the argument itself. -/
theorem V_w7 (c : Dev nD) : (V m c main_v4 : S1024x1024.Idx → EReal) = (m ((c : Thread nD τ).loc main_arg7)) := by
  dsimp only [Gen.V, Gen.hostOps0]; after_results; rfl

/-- Window 7's block at any point is the whole matrix. -/
theorem tile7_apply (c : Dev nD) (t : Fin cfg0.N) (k j : Fin 1024) :
    (iblk m c 7 t : Vec Ideal S1024x1024 .bf16) (ix2 k j) = (m ((c : Thread nD τ).loc main_arg7)) (ix2 k j) := by
  refine Eq.trans ?_ (congrFun (V_w7 m c) _)
  show V m c main_v4 (((cfg0.win 7).blk t).view.emb (ix2 k j)) = V m c main_v4 (ix2 k j)
  refine congrArg _ (funext fun a => Fin.ext ?_)
  obtain ⟨e0, e1⟩ := idx_whole7 t
  match a with
  | ⟨0, _⟩ => show win0_7.index t (0 : Fin 2) * 1024 + 1 * k.val = k.val; omega
  | ⟨1, _⟩ => show win0_7.index t (1 : Fin 2) * 1024 + 1 * j.val = j.val; omega

/-- The narrowed copy of argument 8 that window 8 stages is, at the ideal values, the argument itself. -/
theorem V_w8 (c : Dev nD) : (V m c main_v5 : S1024x1024.Idx → EReal) = (m ((c : Thread nD τ).loc main_arg8)) := by
  dsimp only [Gen.V, Gen.hostOps0]; after_results; rfl

/-- Window 8's block at any point is the whole matrix. -/
theorem tile8_apply (c : Dev nD) (t : Fin cfg0.N) (k j : Fin 1024) :
    (iblk m c 8 t : Vec Ideal S1024x1024 .bf16) (ix2 k j) = (m ((c : Thread nD τ).loc main_arg8)) (ix2 k j) := by
  refine Eq.trans ?_ (congrFun (V_w8 m c) _)
  show V m c main_v5 (((cfg0.win 8).blk t).view.emb (ix2 k j)) = V m c main_v5 (ix2 k j)
  refine congrArg _ (funext fun a => Fin.ext ?_)
  obtain ⟨e0, e1⟩ := idx_whole8 t
  match a with
  | ⟨0, _⟩ => show win0_8.index t (0 : Fin 2) * 1024 + 1 * k.val = k.val; omega
  | ⟨1, _⟩ => show win0_8.index t (1 : Fin 2) * 1024 + 1 * j.val = j.val; omega

/-- The narrowed copy of argument 9 that window 9 stages is, at the ideal values, the argument itself. -/
theorem V_w9 (c : Dev nD) : (V m c main_v6 : S1024x1024.Idx → EReal) = (m ((c : Thread nD τ).loc main_arg9)) := by
  dsimp only [Gen.V, Gen.hostOps0]; after_results; rfl

/-- Window 9's block at any point is the whole matrix. -/
theorem tile9_apply (c : Dev nD) (t : Fin cfg0.N) (k j : Fin 1024) :
    (iblk m c 9 t : Vec Ideal S1024x1024 .bf16) (ix2 k j) = (m ((c : Thread nD τ).loc main_arg9)) (ix2 k j) := by
  refine Eq.trans ?_ (congrFun (V_w9 m c) _)
  show V m c main_v6 (((cfg0.win 9).blk t).view.emb (ix2 k j)) = V m c main_v6 (ix2 k j)
  refine congrArg _ (funext fun a => Fin.ext ?_)
  obtain ⟨e0, e1⟩ := idx_whole9 t
  match a with
  | ⟨0, _⟩ => show win0_9.index t (0 : Fin 2) * 1024 + 1 * k.val = k.val; omega
  | ⟨1, _⟩ => show win0_9.index t (1 : Fin 2) * 1024 + 1 * j.val = j.val; omega

/-- The narrowed copy of argument 10 that window 10 stages is, at the ideal values, the argument itself. -/
theorem V_w10 (c : Dev nD) : (V m c main_v7 : S1024x1024.Idx → EReal) = (m ((c : Thread nD τ).loc main_arg10)) := by
  dsimp only [Gen.V, Gen.hostOps0]; after_results; rfl

/-- Window 10's block at any point is the whole matrix. -/
theorem tile10_apply (c : Dev nD) (t : Fin cfg0.N) (k j : Fin 1024) :
    (iblk m c 10 t : Vec Ideal S1024x1024 .bf16) (ix2 k j) = (m ((c : Thread nD τ).loc main_arg10)) (ix2 k j) := by
  refine Eq.trans ?_ (congrFun (V_w10 m c) _)
  show V m c main_v7 (((cfg0.win 10).blk t).view.emb (ix2 k j)) = V m c main_v7 (ix2 k j)
  refine congrArg _ (funext fun a => Fin.ext ?_)
  obtain ⟨e0, e1⟩ := idx_whole10 t
  match a with
  | ⟨0, _⟩ => show win0_10.index t (0 : Fin 2) * 1024 + 1 * k.val = k.val; omega
  | ⟨1, _⟩ => show win0_10.index t (1 : Fin 2) * 1024 + 1 * j.val = j.val; omega

/-- The one-row copy of bias 11 that window 11 stages reads, at `(0, j)`, the bias at `j`. -/
theorem V_w11 (c : Dev nD) (j : Fin 1024) : (V m c main_v8 : S1x1024.Idx → EReal) (ix2 (0 : Fin 1) j) = (m ((c : Thread nD τ).loc main_arg11)) (ix1 j) := by
  have e : (V m c main_v8 : S1x1024.Idx → EReal) = shapeCast S1x1024 (m ((c : Thread nD τ).loc main_arg11)) shapeCasts_S1024_S1x1024 := by
    dsimp only [Gen.V, Gen.hostOps0]; after_results; rfl
  rw [e, shapeCast_a_1a_apply]

/-- Window 11's block at any point is the whole row. -/
theorem tile11_apply (c : Dev nD) (t : Fin cfg0.N) (j : Fin 1024) :
    (iblk m c 11 t : Vec Ideal S1x1024 .f32) (ix2 (0 : Fin 1) j) = (m ((c : Thread nD τ).loc main_arg11)) (ix1 j) := by
  refine Eq.trans ?_ (V_w11 m c j)
  show V m c main_v8 (((cfg0.win 11).blk t).view.emb (ix2 (0 : Fin 1) j)) = V m c main_v8 (ix2 (0 : Fin 1) j)
  refine congrArg _ (funext fun a => Fin.ext ?_)
  obtain ⟨e0, e1⟩ := idx_whole11 t
  match a with
  | ⟨0, _⟩ => show win0_11.index t (0 : Fin 2) * 1 + 1 * 0 = 0; omega
  | ⟨1, _⟩ => show win0_11.index t (1 : Fin 2) * 1024 + 1 * j.val = j.val; omega

/-- The one-row copy of bias 12 that window 12 stages reads, at `(0, j)`, the bias at `j`. -/
theorem V_w12 (c : Dev nD) (j : Fin 1024) : (V m c main_v9 : S1x1024.Idx → EReal) (ix2 (0 : Fin 1) j) = (m ((c : Thread nD τ).loc main_arg12)) (ix1 j) := by
  have e : (V m c main_v9 : S1x1024.Idx → EReal) = shapeCast S1x1024 (m ((c : Thread nD τ).loc main_arg12)) shapeCasts_S1024_S1x1024 := by
    dsimp only [Gen.V, Gen.hostOps0]; after_results; rfl
  rw [e, shapeCast_a_1a_apply]

/-- Window 12's block at any point is the whole row. -/
theorem tile12_apply (c : Dev nD) (t : Fin cfg0.N) (j : Fin 1024) :
    (iblk m c 12 t : Vec Ideal S1x1024 .f32) (ix2 (0 : Fin 1) j) = (m ((c : Thread nD τ).loc main_arg12)) (ix1 j) := by
  refine Eq.trans ?_ (V_w12 m c j)
  show V m c main_v9 (((cfg0.win 12).blk t).view.emb (ix2 (0 : Fin 1) j)) = V m c main_v9 (ix2 (0 : Fin 1) j)
  refine congrArg _ (funext fun a => Fin.ext ?_)
  obtain ⟨e0, e1⟩ := idx_whole12 t
  match a with
  | ⟨0, _⟩ => show win0_12.index t (0 : Fin 2) * 1 + 1 * 0 = 0; omega
  | ⟨1, _⟩ => show win0_12.index t (1 : Fin 2) * 1024 + 1 * j.val = j.val; omega

/-- The one-row copy of bias 13 that window 13 stages reads, at `(0, j)`, the bias at `j`. -/
theorem V_w13 (c : Dev nD) (j : Fin 1024) : (V m c main_v10 : S1x1024.Idx → EReal) (ix2 (0 : Fin 1) j) = (m ((c : Thread nD τ).loc main_arg13)) (ix1 j) := by
  have e : (V m c main_v10 : S1x1024.Idx → EReal) = shapeCast S1x1024 (m ((c : Thread nD τ).loc main_arg13)) shapeCasts_S1024_S1x1024 := by
    dsimp only [Gen.V, Gen.hostOps0]; after_results; rfl
  rw [e, shapeCast_a_1a_apply]

/-- Window 13's block at any point is the whole row. -/
theorem tile13_apply (c : Dev nD) (t : Fin cfg0.N) (j : Fin 1024) :
    (iblk m c 13 t : Vec Ideal S1x1024 .f32) (ix2 (0 : Fin 1) j) = (m ((c : Thread nD τ).loc main_arg13)) (ix1 j) := by
  refine Eq.trans ?_ (V_w13 m c j)
  show V m c main_v10 (((cfg0.win 13).blk t).view.emb (ix2 (0 : Fin 1) j)) = V m c main_v10 (ix2 (0 : Fin 1) j)
  refine congrArg _ (funext fun a => Fin.ext ?_)
  obtain ⟨e0, e1⟩ := idx_whole13 t
  match a with
  | ⟨0, _⟩ => show win0_13.index t (0 : Fin 2) * 1 + 1 * 0 = 0; omega
  | ⟨1, _⟩ => show win0_13.index t (1 : Fin 2) * 1024 + 1 * j.val = j.val; omega

/-- The one-row copy of bias 14 that window 14 stages reads, at `(0, j)`, the bias at `j`. -/
theorem V_w14 (c : Dev nD) (j : Fin 1024) : (V m c main_v11 : S1x1024.Idx → EReal) (ix2 (0 : Fin 1) j) = (m ((c : Thread nD τ).loc main_arg14)) (ix1 j) := by
  have e : (V m c main_v11 : S1x1024.Idx → EReal) = shapeCast S1x1024 (m ((c : Thread nD τ).loc main_arg14)) shapeCasts_S1024_S1x1024 := by
    dsimp only [Gen.V, Gen.hostOps0]; after_results; rfl
  rw [e, shapeCast_a_1a_apply]

/-- Window 14's block at any point is the whole row. -/
theorem tile14_apply (c : Dev nD) (t : Fin cfg0.N) (j : Fin 1024) :
    (iblk m c 14 t : Vec Ideal S1x1024 .f32) (ix2 (0 : Fin 1) j) = (m ((c : Thread nD τ).loc main_arg14)) (ix1 j) := by
  refine Eq.trans ?_ (V_w14 m c j)
  show V m c main_v11 (((cfg0.win 14).blk t).view.emb (ix2 (0 : Fin 1) j)) = V m c main_v11 (ix2 (0 : Fin 1) j)
  refine congrArg _ (funext fun a => Fin.ext ?_)
  obtain ⟨e0, e1⟩ := idx_whole14 t
  match a with
  | ⟨0, _⟩ => show win0_14.index t (0 : Fin 2) * 1 + 1 * 0 = 0; omega
  | ⟨1, _⟩ => show win0_14.index t (1 : Fin 2) * 1024 + 1 * j.val = j.val; omega

/-! ## The cell step of the batch from the launch contents -/

/-- The batch's new cell state, from the argument arrays as launched. -/
abbrev cellOf (c : Dev nD) : S4096x1024.Idx → EReal := newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg14))

/-- The batch's new hidden state, from the argument arrays as launched. -/
abbrev hiddenOf (c : Dev nD) : S4096x1024.Idx → EReal := newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The forget gate's pre-activation from the tile's blocks is its pre-activation from the batch, at row `256·t + p`. -/
theorem gateF_eq (c : Dev nD) (t : Fin cfg0.N) (p : Fin 256) (q : Fin 1024) :
    preact (rowOf (iblk m c 0 t : Vec Ideal S256x1024 .f32) p) (rowOf (iblk m c 1 t : Vec Ideal S256x1024 .f32) p) (matOf (iblk m c 3 t : Vec Ideal S1024x1024 .bf16)) (matOf (iblk m c 7 t : Vec Ideal S1024x1024 .bf16)) (biasRow (iblk m c 11 t : Vec Ideal S1x1024 .f32)) q
      = preact (rowOf (m ((c : Thread nD τ).loc main_arg0)) (tileRow t p)) (rowOf (m ((c : Thread nD τ).loc main_arg2)) (tileRow t p)) (matOf (m ((c : Thread nD τ).loc main_arg3))) (matOf (m ((c : Thread nD τ).loc main_arg7))) (vecOf (m ((c : Thread nD τ).loc main_arg11))) q := by
  have hX : rowOf (iblk m c 0 t : Vec Ideal S256x1024 .f32) p = rowOf (m ((c : Thread nD τ).loc main_arg0)) (tileRow t p) := funext fun k => tile0_apply m c t p k
  have hH : rowOf (iblk m c 1 t : Vec Ideal S256x1024 .f32) p = rowOf (m ((c : Thread nD τ).loc main_arg2)) (tileRow t p) := funext fun k => tile1_apply m c t p k
  have hW : matOf (iblk m c 3 t : Vec Ideal S1024x1024 .bf16) = matOf (m ((c : Thread nD τ).loc main_arg3)) := funext fun k => funext fun j => tile3_apply m c t k j
  have hU : matOf (iblk m c 7 t : Vec Ideal S1024x1024 .bf16) = matOf (m ((c : Thread nD τ).loc main_arg7)) := funext fun k => funext fun j => tile7_apply m c t k j
  have hb : biasRow (iblk m c 11 t : Vec Ideal S1x1024 .f32) = vecOf (m ((c : Thread nD τ).loc main_arg11)) := funext fun j => tile11_apply m c t j
  rw [hX, hH, hW, hU, hb]

/-- The input gate's pre-activation from the tile's blocks is its pre-activation from the batch, at row `256·t + p`. -/
theorem gateI_eq (c : Dev nD) (t : Fin cfg0.N) (p : Fin 256) (q : Fin 1024) :
    preact (rowOf (iblk m c 0 t : Vec Ideal S256x1024 .f32) p) (rowOf (iblk m c 1 t : Vec Ideal S256x1024 .f32) p) (matOf (iblk m c 4 t : Vec Ideal S1024x1024 .bf16)) (matOf (iblk m c 8 t : Vec Ideal S1024x1024 .bf16)) (biasRow (iblk m c 12 t : Vec Ideal S1x1024 .f32)) q
      = preact (rowOf (m ((c : Thread nD τ).loc main_arg0)) (tileRow t p)) (rowOf (m ((c : Thread nD τ).loc main_arg2)) (tileRow t p)) (matOf (m ((c : Thread nD τ).loc main_arg4))) (matOf (m ((c : Thread nD τ).loc main_arg8))) (vecOf (m ((c : Thread nD τ).loc main_arg12))) q := by
  have hX : rowOf (iblk m c 0 t : Vec Ideal S256x1024 .f32) p = rowOf (m ((c : Thread nD τ).loc main_arg0)) (tileRow t p) := funext fun k => tile0_apply m c t p k
  have hH : rowOf (iblk m c 1 t : Vec Ideal S256x1024 .f32) p = rowOf (m ((c : Thread nD τ).loc main_arg2)) (tileRow t p) := funext fun k => tile1_apply m c t p k
  have hW : matOf (iblk m c 4 t : Vec Ideal S1024x1024 .bf16) = matOf (m ((c : Thread nD τ).loc main_arg4)) := funext fun k => funext fun j => tile4_apply m c t k j
  have hU : matOf (iblk m c 8 t : Vec Ideal S1024x1024 .bf16) = matOf (m ((c : Thread nD τ).loc main_arg8)) := funext fun k => funext fun j => tile8_apply m c t k j
  have hb : biasRow (iblk m c 12 t : Vec Ideal S1x1024 .f32) = vecOf (m ((c : Thread nD τ).loc main_arg12)) := funext fun j => tile12_apply m c t j
  rw [hX, hH, hW, hU, hb]

/-- The output gate's pre-activation from the tile's blocks is its pre-activation from the batch, at row `256·t + p`. -/
theorem gateO_eq (c : Dev nD) (t : Fin cfg0.N) (p : Fin 256) (q : Fin 1024) :
    preact (rowOf (iblk m c 0 t : Vec Ideal S256x1024 .f32) p) (rowOf (iblk m c 1 t : Vec Ideal S256x1024 .f32) p) (matOf (iblk m c 5 t : Vec Ideal S1024x1024 .bf16)) (matOf (iblk m c 9 t : Vec Ideal S1024x1024 .bf16)) (biasRow (iblk m c 13 t : Vec Ideal S1x1024 .f32)) q
      = preact (rowOf (m ((c : Thread nD τ).loc main_arg0)) (tileRow t p)) (rowOf (m ((c : Thread nD τ).loc main_arg2)) (tileRow t p)) (matOf (m ((c : Thread nD τ).loc main_arg5))) (matOf (m ((c : Thread nD τ).loc main_arg9))) (vecOf (m ((c : Thread nD τ).loc main_arg13))) q := by
  have hX : rowOf (iblk m c 0 t : Vec Ideal S256x1024 .f32) p = rowOf (m ((c : Thread nD τ).loc main_arg0)) (tileRow t p) := funext fun k => tile0_apply m c t p k
  have hH : rowOf (iblk m c 1 t : Vec Ideal S256x1024 .f32) p = rowOf (m ((c : Thread nD τ).loc main_arg2)) (tileRow t p) := funext fun k => tile1_apply m c t p k
  have hW : matOf (iblk m c 5 t : Vec Ideal S1024x1024 .bf16) = matOf (m ((c : Thread nD τ).loc main_arg5)) := funext fun k => funext fun j => tile5_apply m c t k j
  have hU : matOf (iblk m c 9 t : Vec Ideal S1024x1024 .bf16) = matOf (m ((c : Thread nD τ).loc main_arg9)) := funext fun k => funext fun j => tile9_apply m c t k j
  have hb : biasRow (iblk m c 13 t : Vec Ideal S1x1024 .f32) = vecOf (m ((c : Thread nD τ).loc main_arg13)) := funext fun j => tile13_apply m c t j
  rw [hX, hH, hW, hU, hb]

/-- The candidate gate's pre-activation from the tile's blocks is its pre-activation from the batch, at row `256·t + p`. -/
theorem gateC_eq (c : Dev nD) (t : Fin cfg0.N) (p : Fin 256) (q : Fin 1024) :
    preact (rowOf (iblk m c 0 t : Vec Ideal S256x1024 .f32) p) (rowOf (iblk m c 1 t : Vec Ideal S256x1024 .f32) p) (matOf (iblk m c 6 t : Vec Ideal S1024x1024 .bf16)) (matOf (iblk m c 10 t : Vec Ideal S1024x1024 .bf16)) (biasRow (iblk m c 14 t : Vec Ideal S1x1024 .f32)) q
      = preact (rowOf (m ((c : Thread nD τ).loc main_arg0)) (tileRow t p)) (rowOf (m ((c : Thread nD τ).loc main_arg2)) (tileRow t p)) (matOf (m ((c : Thread nD τ).loc main_arg6))) (matOf (m ((c : Thread nD τ).loc main_arg10))) (vecOf (m ((c : Thread nD τ).loc main_arg14))) q := by
  have hX : rowOf (iblk m c 0 t : Vec Ideal S256x1024 .f32) p = rowOf (m ((c : Thread nD τ).loc main_arg0)) (tileRow t p) := funext fun k => tile0_apply m c t p k
  have hH : rowOf (iblk m c 1 t : Vec Ideal S256x1024 .f32) p = rowOf (m ((c : Thread nD τ).loc main_arg2)) (tileRow t p) := funext fun k => tile1_apply m c t p k
  have hW : matOf (iblk m c 6 t : Vec Ideal S1024x1024 .bf16) = matOf (m ((c : Thread nD τ).loc main_arg6)) := funext fun k => funext fun j => tile6_apply m c t k j
  have hU : matOf (iblk m c 10 t : Vec Ideal S1024x1024 .bf16) = matOf (m ((c : Thread nD τ).loc main_arg10)) := funext fun k => funext fun j => tile10_apply m c t k j
  have hb : biasRow (iblk m c 14 t : Vec Ideal S1x1024 .f32) = vecOf (m ((c : Thread nD τ).loc main_arg14)) := funext fun j => tile14_apply m c t j
  rw [hX, hH, hW, hU, hb]

/-! ## Result window 15 -/

/-- The array index of entry `(p, q)` of point `t`'s block of window 15. -/
theorem emb15 (t : Fin cfg0.N) (p : Fin 256) (q : Fin 1024) :
    ((cfg0.win 15).blk t).view.emb (ix2 p q) = ix2 (tileRow t p) q := funext fun a => Fin.ext (by
  obtain ⟨e0, e1⟩ := idx_rows15 t
  match a with
  | ⟨0, _⟩ => show win0_15.index t (0 : Fin 2) * 256 + 1 * p.val = 256 * t.val + p.val; omega
  | ⟨1, _⟩ => show win0_15.index t (1 : Fin 2) * 1024 + 1 * q.val = q.val; omega)

/-- WHAT POINT `t` WRITES BACK to window 15 is rows `256·t … 256·t + 255` of the batch's new hidden state. -/
theorem flushed15_eq (c : Dev nD) (t : Fin cfg0.N) :
    (dats m 0 c).flushed 15 t = ((cfg0.win 15).blk t).view.read (Elt Ideal) (hiddenOf m c) := by
  rw [Value.flushed15]
  unfold out0_15
  rw [View.canon_unit_zero zero_offsets]
  simp only [View.ld_unit_zero (S := S256x1024) zero_offsets, View.ld_unit_zero (S := S1024x1024) zero_offsets,
    View.ld_unit_zero (S := S1x1024) zero_offsets]
  funext y
  obtain ⟨p, q, rfl⟩ : ∃ (p : Fin 256) (q : Fin 1024), y = ix2 p q := ⟨y 0, y 1, eq_ix2 y⟩
  refine (hiddenTile_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  show _ = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 15).blk t).view.emb (ix2 p q))
  rw [emb15, newHidden_ix2, gateF_eq, gateI_eq, gateO_eq, gateC_eq, tile2_apply]

/-- An index of the array is in point `t`'s block iff each coordinate is in the block's range on its axis. -/
theorem mem_blk15 (t : Fin cfg0.N) (i : S4096x1024.Idx) :
    i ∈ ((cfg0.win 15).blk t).view.set ↔ ∀ a : Fin 2, win0_15.index t a * S256x1024.size a ≤ (i a).val
      ∧ (i a).val < win0_15.index t a * S256x1024.size a + S256x1024.size a := by
  show i ∈ ((View.whole main_v12_0).slice (win0_15.rect t)).set ↔ _
  rw [View.set_slice_whole, Rect.mem_set_unit]
  exact Iff.rfl

/-- Every entry of the array is in the block of the point that holds its row: point `r / 256`. -/
theorem cover15 (i : S4096x1024.Idx) :
    ∃ t : Fin cfg0.N, (cfg0.win 15).flush t = true ∧ i ∈ ((cfg0.win 15).blk t).view.set := by
  have hi0 : (i 0).val < 4096 := (i 0).isLt
  have hi1 : (i 1).val < 1024 := (i 1).isLt
  have ht : (i 0).val / 256 < 16 := by omega
  refine ⟨⟨(i 0).val / 256, ht⟩, flush0_15 _, ?_⟩
  rw [mem_blk15]
  obtain ⟨e0, e1⟩ := idx_rows15 ⟨(i 0).val / 256, ht⟩
  intro a
  match a with
  | ⟨0, _⟩ =>
    show win0_15.index ⟨(i 0).val / 256, ht⟩ (0 : Fin 2) * 256 ≤ (i 0).val
      ∧ (i 0).val < win0_15.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_15.index ⟨(i 0).val / 256, ht⟩ (1 : Fin 2) * 1024 ≤ (i 1).val
      ∧ (i 1).val < win0_15.index ⟨(i 0).val / 256, ht⟩ (1 : Fin 2) * 1024 + 1024
    rw [e1]; omega

/-- THE ARRAY after the run is the batch's new hidden state. -/
theorem final15 (c : Dev nD) : (dats m 0 c).arrAt 15 cfg0.N = hiddenOf m c :=
  (dats m 0 c).arrAt_eq_of_cover 15 (hiddenOf m c) (fun t _ => flushed15_eq m c t) cover15

/-! ## Result window 16 -/

/-- The array index of entry `(p, q)` of point `t`'s block of window 16. -/
theorem emb16 (t : Fin cfg0.N) (p : Fin 256) (q : Fin 1024) :
    ((cfg0.win 16).blk t).view.emb (ix2 p q) = ix2 (tileRow t p) q := funext fun a => Fin.ext (by
  obtain ⟨e0, e1⟩ := idx_rows16 t
  match a with
  | ⟨0, _⟩ => show win0_16.index t (0 : Fin 2) * 256 + 1 * p.val = 256 * t.val + p.val; omega
  | ⟨1, _⟩ => show win0_16.index t (1 : Fin 2) * 1024 + 1 * q.val = q.val; omega)

/-- WHAT POINT `t` WRITES BACK to window 16 is rows `256·t … 256·t + 255` of the batch's new cell state. -/
theorem flushed16_eq (c : Dev nD) (t : Fin cfg0.N) :
    (dats m 0 c).flushed 16 t = ((cfg0.win 16).blk t).view.read (Elt Ideal) (cellOf m c) := by
  rw [Value.flushed16]
  unfold out0_16
  rw [View.canon_unit_zero zero_offsets]
  simp only [View.ld_unit_zero (S := S256x1024) zero_offsets, View.ld_unit_zero (S := S1024x1024) zero_offsets,
    View.ld_unit_zero (S := S1x1024) zero_offsets]
  funext y
  obtain ⟨p, q, rfl⟩ : ∃ (p : Fin 256) (q : Fin 1024), y = ix2 p q := ⟨y 0, y 1, eq_ix2 y⟩
  refine (cellTile_apply (iblk m c 0 t) (iblk m c 1 t) (iblk m c 2 t) (iblk m c 3 t) (iblk m c 4 t) (iblk m c 6 t) (iblk m c 7 t) (iblk m c 8 t) (iblk m c 10 t) (iblk m c 11 t) (iblk m c 12 t) (iblk m c 14 t) p q).trans ?_
  show _ = newCell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg14)) (((cfg0.win 16).blk t).view.emb (ix2 p q))
  rw [emb16, newCell_ix2, gateF_eq, gateI_eq, gateC_eq, tile2_apply]

/-- An index of the array is in point `t`'s block iff each coordinate is in the block's range on its axis. -/
theorem mem_blk16 (t : Fin cfg0.N) (i : S4096x1024.Idx) :
    i ∈ ((cfg0.win 16).blk t).view.set ↔ ∀ a : Fin 2, win0_16.index t a * S256x1024.size a ≤ (i a).val
      ∧ (i a).val < win0_16.index t a * S256x1024.size a + S256x1024.size a := by
  show i ∈ ((View.whole main_v12_1).slice (win0_16.rect t)).set ↔ _
  rw [View.set_slice_whole, Rect.mem_set_unit]
  exact Iff.rfl

/-- Every entry of the array is in the block of the point that holds its row: point `r / 256`. -/
theorem cover16 (i : S4096x1024.Idx) :
    ∃ t : Fin cfg0.N, (cfg0.win 16).flush t = true ∧ i ∈ ((cfg0.win 16).blk t).view.set := by
  have hi0 : (i 0).val < 4096 := (i 0).isLt
  have hi1 : (i 1).val < 1024 := (i 1).isLt
  have ht : (i 0).val / 256 < 16 := by omega
  refine ⟨⟨(i 0).val / 256, ht⟩, flush0_16 _, ?_⟩
  rw [mem_blk16]
  obtain ⟨e0, e1⟩ := idx_rows16 ⟨(i 0).val / 256, ht⟩
  intro a
  match a with
  | ⟨0, _⟩ =>
    show win0_16.index ⟨(i 0).val / 256, ht⟩ (0 : Fin 2) * 256 ≤ (i 0).val
      ∧ (i 0).val < win0_16.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_16.index ⟨(i 0).val / 256, ht⟩ (1 : Fin 2) * 1024 ≤ (i 1).val
      ∧ (i 1).val < win0_16.index ⟨(i 0).val / 256, ht⟩ (1 : Fin 2) * 1024 + 1024
    rw [e1]; omega

/-- THE ARRAY after the run is the batch's new cell state. -/
theorem final16 (c : Dev nD) : (dats m 0 c).arrAt 16 cfg0.N = cellOf m c :=
  (dats m 0 c).arrAt_eq_of_cover 16 (cellOf m c) (fun t _ => flushed16_eq m c t) cover16

/-! ## Result window 17 -/

/-- The array index of entry `(p, q)` of point `t`'s block of window 17. -/
theorem emb17 (t : Fin cfg0.N) (p : Fin 256) (q : Fin 1024) :
    ((cfg0.win 17).blk t).view.emb (ix2 p q) = ix2 (tileRow t p) q := funext fun a => Fin.ext (by
  obtain ⟨e0, e1⟩ := idx_rows17 t
  match a with
  | ⟨0, _⟩ => show win0_17.index t (0 : Fin 2) * 256 + 1 * p.val = 256 * t.val + p.val; omega
  | ⟨1, _⟩ => show win0_17.index t (1 : Fin 2) * 1024 + 1 * q.val = q.val; omega)

/-- WHAT POINT `t` WRITES BACK to window 17 is rows `256·t … 256·t + 255` of the batch's new hidden state. -/
theorem flushed17_eq (c : Dev nD) (t : Fin cfg0.N) :
    (dats m 0 c).flushed 17 t = ((cfg0.win 17).blk t).view.read (Elt Ideal) (hiddenOf m c) := by
  rw [Value.flushed17]
  unfold out0_17
  rw [View.canon_unit_zero zero_offsets]
  simp only [View.ld_unit_zero (S := S256x1024) zero_offsets, View.ld_unit_zero (S := S1024x1024) zero_offsets,
    View.ld_unit_zero (S := S1x1024) zero_offsets]
  funext y
  obtain ⟨p, q, rfl⟩ : ∃ (p : Fin 256) (q : Fin 1024), y = ix2 p q := ⟨y 0, y 1, eq_ix2 y⟩
  refine (hiddenTile_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  show _ = newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 17).blk t).view.emb (ix2 p q))
  rw [emb17, newHidden_ix2, gateF_eq, gateI_eq, gateO_eq, gateC_eq, tile2_apply]

/-- An index of the array is in point `t`'s block iff each coordinate is in the block's range on its axis. -/
theorem mem_blk17 (t : Fin cfg0.N) (i : S4096x1024.Idx) :
    i ∈ ((cfg0.win 17).blk t).view.set ↔ ∀ a : Fin 2, win0_17.index t a * S256x1024.size a ≤ (i a).val
      ∧ (i a).val < win0_17.index t a * S256x1024.size a + S256x1024.size a := by
  show i ∈ ((View.whole main_v12_2).slice (win0_17.rect t)).set ↔ _
  rw [View.set_slice_whole, Rect.mem_set_unit]
  exact Iff.rfl

/-- Every entry of the array is in the block of the point that holds its row: point `r / 256`. -/
theorem cover17 (i : S4096x1024.Idx) :
    ∃ t : Fin cfg0.N, (cfg0.win 17).flush t = true ∧ i ∈ ((cfg0.win 17).blk t).view.set := by
  have hi0 : (i 0).val < 4096 := (i 0).isLt
  have hi1 : (i 1).val < 1024 := (i 1).isLt
  have ht : (i 0).val / 256 < 16 := by omega
  refine ⟨⟨(i 0).val / 256, ht⟩, flush0_17 _, ?_⟩
  rw [mem_blk17]
  obtain ⟨e0, e1⟩ := idx_rows17 ⟨(i 0).val / 256, ht⟩
  intro a
  match a with
  | ⟨0, _⟩ =>
    show win0_17.index ⟨(i 0).val / 256, ht⟩ (0 : Fin 2) * 256 ≤ (i 0).val
      ∧ (i 0).val < win0_17.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_17.index ⟨(i 0).val / 256, ht⟩ (1 : Fin 2) * 1024 ≤ (i 1).val
      ∧ (i 1).val < win0_17.index ⟨(i 0).val / 256, ht⟩ (1 : Fin 2) * 1024 + 1024
    rw [e1]; omega

/-- THE ARRAY after the run is the batch's new hidden state. -/
theorem final17 (c : Dev nD) : (dats m 0 c).arrAt 17 cfg0.N = hiddenOf m c :=
  (dats m 0 c).arrAt_eq_of_cover 17 (hiddenOf m c) (fun t _ => flushed17_eq m c t) cover17

/-! ## The run, read -/

/-- The frame run re-posted: the first and third results at the batch's new hidden state, the second at its new cell
    state, the arguments unchanged. -/
theorem run : θ_run defs (onTc (τ := τ) (main (F := Ideal))) ⟨m, fun _ => 0, ρ⟩ fun r => ∀ c : Dev nD,
      r.2.mem ((c : Thread nD τ).loc main_v12_0) = hiddenOf m c
      ∧ r.2.mem ((c : Thread nD τ).loc main_v12_1) = cellOf m c
      ∧ r.2.mem ((c : Thread nD τ).loc main_v12_2) = hiddenOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c),
      (h c).2.2.1.trans (final17 m c), (h c).2.2.2⟩)
    (Value.run_blocks m ρ)

end Cert.KernelIdeal.Blocks

end
-- ==== Proof.LibConcatFour.lean ====
/-
  Four pieces of one shape laid side by side, read at an index.

  Four matrices of n rows and w columns joined along the columns make a matrix of n rows whose column g·w + j is column j of
  piece g; four vectors of w entries joined end to end make a vector whose entry g·w + j is entry j of piece g.
-/
import Idealize.ShloMosaic.Lib.Pipeline.Value
import Idealize.ShloMosaic.Lib.ValueIdx

noncomputable section

namespace Idealize.ShloMosaic.ConcatFour

open Idealize.ShloMosaic Idealize.ShloMosaic.ValueIdx

variable {α : Type}

/-- Four `[n, w]` matrices joined along axis 1: at row `r`, column `g·w + j`, the result reads piece `g` at `(r, j)`. -/
theorem cols_apply {n w W : ℕ} (x0 x1 x2 x3 : (⟨2, ![n, w]⟩ : Shape).Idx → α)
    (h : Shape.Concatenates [(⟨2, ![n, w]⟩ : Shape), ⟨2, ![n, w]⟩, ⟨2, ![n, w]⟩, ⟨2, ![n, w]⟩] ⟨2, ![n, W]⟩ 1)
    (i : (⟨2, ![n, W]⟩ : Shape).Idx) (g : Fin 4) (r : Fin n) (j : Fin w)
    (hr : (i 0).val = r.val) (hj : (i 1).val = g.val * w + j.val) :
    concatenate ⟨2, ![n, W]⟩ 1 [⟨⟨2, ![n, w]⟩, x0⟩, ⟨⟨2, ![n, w]⟩, x1⟩, ⟨⟨2, ![n, w]⟩, x2⟩, ⟨⟨2, ![n, w]⟩, x3⟩] h i
      = (![x0, x1, x2, x3] g) (ix2 r j) := by
  have hi : ∀ b : Fin 2, b ≠ 1 → ((ix2 r j : (⟨2, ![n, w]⟩ : Shape).Idx) b).val = (i b).val := fun b hb => by
    match b with
    | ⟨0, _⟩ => exact hr.symm
    | ⟨1, _⟩ => exact absurd rfl hb
  let xs : List ((s : Shape) × (s.Idx → α)) :=
    [⟨⟨2, ![n, w]⟩, x0⟩, ⟨⟨2, ![n, w]⟩, x1⟩, ⟨⟨2, ![n, w]⟩, x2⟩, ⟨⟨2, ![n, w]⟩, x3⟩]
  match g, hj with
  | ⟨0, _⟩, hj =>
    exact concatenate_apply_piece (t := ⟨2, ![n, W]⟩) 1 xs h i 0 (show 0 < 4 by omega) _ x0 rfl rfl 0 rfl (ix2 r j) hi
      (by show 0 + j.val = (i 1).val; rw [hj]; show 0 + j.val = 0 * w + j.val; omega)
  | ⟨1, _⟩, hj =>
    exact concatenate_apply_piece (t := ⟨2, ![n, W]⟩) 1 xs h i 1 (show 1 < 4 by omega) _ x1 rfl rfl (w + 0) rfl (ix2 r j) hi
      (by show w + 0 + j.val = (i 1).val; rw [hj]; show w + 0 + j.val = 1 * w + j.val; omega)
  | ⟨2, _⟩, hj =>
    exact concatenate_apply_piece (t := ⟨2, ![n, W]⟩) 1 xs h i 2 (show 2 < 4 by omega) _ x2 rfl rfl (w + (w + 0)) rfl (ix2 r j) hi
      (by show w + (w + 0) + j.val = (i 1).val; rw [hj]; show w + (w + 0) + j.val = 2 * w + j.val; omega)
  | ⟨3, _⟩, hj =>
    exact concatenate_apply_piece (t := ⟨2, ![n, W]⟩) 1 xs h i 3 (show 3 < 4 by omega) _ x3 rfl rfl (w + (w + (w + 0))) rfl (ix2 r j) hi
      (by show w + (w + (w + 0)) + j.val = (i 1).val; rw [hj]; show w + (w + (w + 0)) + j.val = 3 * w + j.val; omega)

/-- Four `[w]` vectors joined end to end: at entry `g·w + j` the result reads piece `g` at `j`. -/
theorem vecs_apply {w W : ℕ} (x0 x1 x2 x3 : (⟨1, ![w]⟩ : Shape).Idx → α)
    (h : Shape.Concatenates [(⟨1, ![w]⟩ : Shape), ⟨1, ![w]⟩, ⟨1, ![w]⟩, ⟨1, ![w]⟩] ⟨1, ![W]⟩ 0)
    (i : (⟨1, ![W]⟩ : Shape).Idx) (g : Fin 4) (j : Fin w) (hj : (i 0).val = g.val * w + j.val) :
    concatenate ⟨1, ![W]⟩ 0 [⟨⟨1, ![w]⟩, x0⟩, ⟨⟨1, ![w]⟩, x1⟩, ⟨⟨1, ![w]⟩, x2⟩, ⟨⟨1, ![w]⟩, x3⟩] h i
      = (![x0, x1, x2, x3] g) (ix1 j) := by
  have hi : ∀ b : Fin 1, b ≠ 0 → ((ix1 j : (⟨1, ![w]⟩ : Shape).Idx) b).val = (i b).val := fun b hb => by
    match b with
    | ⟨0, _⟩ => exact absurd rfl hb
  let xs : List ((s : Shape) × (s.Idx → α)) :=
    [⟨⟨1, ![w]⟩, x0⟩, ⟨⟨1, ![w]⟩, x1⟩, ⟨⟨1, ![w]⟩, x2⟩, ⟨⟨1, ![w]⟩, x3⟩]
  match g, hj with
  | ⟨0, _⟩, hj =>
    exact concatenate_apply_piece (t := ⟨1, ![W]⟩) 0 xs h i 0 (show 0 < 4 by omega) _ x0 rfl rfl 0 rfl (ix1 j) hi
      (by show 0 + j.val = (i 0).val; rw [hj]; show 0 + j.val = 0 * w + j.val; omega)
  | ⟨1, _⟩, hj =>
    exact concatenate_apply_piece (t := ⟨1, ![W]⟩) 0 xs h i 1 (show 1 < 4 by omega) _ x1 rfl rfl (w + 0) rfl (ix1 j) hi
      (by show w + 0 + j.val = (i 0).val; rw [hj]; show w + 0 + j.val = 1 * w + j.val; omega)
  | ⟨2, _⟩, hj =>
    exact concatenate_apply_piece (t := ⟨1, ![W]⟩) 0 xs h i 2 (show 2 < 4 by omega) _ x2 rfl rfl (w + (w + 0)) rfl (ix1 j) hi
      (by show w + (w + 0) + j.val = (i 0).val; rw [hj]; show w + (w + 0) + j.val = 2 * w + j.val; omega)
  | ⟨3, _⟩, hj =>
    exact concatenate_apply_piece (t := ⟨1, ![W]⟩) 0 xs h i 3 (show 3 < 4 by omega) _ x3 rfl rfl (w + (w + (w + 0))) rfl (ix1 j) hi
      (by show w + (w + (w + 0)) + j.val = (i 0).val; rw [hj]; show w + (w + (w + 0)) + j.val = 3 * w + j.val; omega)

end Idealize.ShloMosaic.ConcatFour

end
-- ==== Proof.RefCell.lean ====
/-
  The reference, stage by stage, is the cell step.

  The reference joins the four input weight matrices side by side into one [1024, 4096] matrix, likewise the four recurrent
  matrices and the four biases, takes two products and adds the bias row: entry (r, g·1024 + j) of that fused
  pre-activation is gate g's pre-activation of row r at unit j, because column g·1024 + j of a joined matrix is column j of
  piece g. The four slices of 1024 columns are therefore the four gates' pre-activations. The clamp it calls three times
  is the hard sigmoid, and the remaining stages are the pointwise gating.
-/
import proofs.«165920_j40956808135044_1_alg».proof.Proof.Gen.ReferenceIdeal.Read
import proofs.«165920_j40956808135044_1_alg».proof.Proof.CellSpec
import proofs.«165920_j40956808135044_1_alg».proof.Proof.LibConcatFour
import Idealize.ShloMosaic.Lib.IdealHost
import Idealize.ShloMosaic.Lib.ValueIdx

noncomputable section

namespace Cert.ReferenceIdeal.Cell

open Cert.ReferenceIdeal Cert.ReferenceIdeal.Gen Cert.ReferenceIdeal.Read Idealize.ShloMosaic Idealize.ShloMosaic.ValueIdx
open Cert.Lstm

/-- The clamp of `0.2·z + 0.5` to `[0, 1]` over broadcast scalar constants is the hard sigmoid, entry by entry. -/
theorem clip_apply {T : Shape} (hb : (⟨0, ![]⟩ : Shape).BroadcastsInDim T ![]) (z : FVec Ideal T .f32) (i : T.Idx) :
    minimumf (broadcastInDim T ![] hb (id (constant (F := Ideal) ⟨0, ![]⟩ .f32 0x3F800000#32)))
      (maximumf (broadcastInDim T ![] hb (id (constant (F := Ideal) ⟨0, ![]⟩ .f32 0x00000000#32)))
        (addf (mulf (broadcastInDim T ![] hb (constant (F := Ideal) ⟨0, ![]⟩ .f32 0x3E4CCCCD#32)) z)
          (broadcastInDim T ![] hb (constant (F := Ideal) ⟨0, ![]⟩ .f32 0x3F000000#32)))) i = hardSigmoid (z i) := by
  rw [minimumf_apply, maximumf_apply, addf_apply, mulf_apply, broadcastInDim_scalar_apply, broadcastInDim_scalar_apply,
    broadcastInDim_scalar_apply, broadcastInDim_scalar_apply]
  rfl

section
variable (x0 x1 x2 : (⟨S4096x1024, .f32⟩ : BufTy).Contents (Elt Ideal)) (x3 x4 x5 x6 x7 x8 x9 x10 : (⟨S1024x1024, .f32⟩ : BufTy).Contents (Elt Ideal))
  (x11 x12 x13 x14 : (⟨S1024, .f32⟩ : BufTy).Contents (Elt Ideal))

/-- THE FUSED PRE-ACTIVATION at row `r`, column `g·1024 + j`, is gate `g`'s pre-activation of row `r` at unit `j`. -/
theorem fused_apply (g : Fin 4) (i' : S4096x4096.Idx) (r : Fin 4096) (j : Fin 1024)
    (hr : (i' 0).val = r.val) (hc : (i' 1).val = g.val * 1024 + j.val) :
    val_main_v8 (F := Ideal) x0 x2 x3 x4 x5 x6 x7 x8 x9 x10 x11 x12 x13 x14 i'
      = preact (rowOf x0 r) (rowOf x2 r) (matOf (![x3, x4, x5, x6] g)) (matOf (![x7, x8, x9, x10] g))
          (vecOf (![x11, x12, x13, x14] g)) j := by
  rw [val_main_v8_apply, val_main_v5_apply, val_main_v3_apply, val_main_v4_apply, val_main_v7_apply, val_main_v6_apply,
    Ideal.addf_def, Ideal.addf_def]
  unfold preact val_main_v0 val_main_v1 val_main_v2
  refine congrArg₂ (· + ·) (congrArg₂ (· + ·) (Finset.sum_congr rfl fun k _ => ?_) (Finset.sum_congr rfl fun k _ => ?_)) ?_
  · have hl : lidx_main_v3 i' k = ix2 r k := funext fun a => Fin.ext (by
      match a with
      | ⟨0, _⟩ => exact hr
      | ⟨1, _⟩ => rfl)
    rw [hl, ConcatFour.cols_apply x3 x4 x5 x6 _ (ridx_main_v3 i' k) g k j rfl hc]
  · have hl : lidx_main_v4 i' k = ix2 r k := funext fun a => Fin.ext (by
      match a with
      | ⟨0, _⟩ => exact hr
      | ⟨1, _⟩ => rfl)
    rw [hl, ConcatFour.cols_apply x7 x8 x9 x10 _ (ridx_main_v4 i' k) g k j rfl hc]
  · exact ConcatFour.vecs_apply x11 x12 x13 x14 _ _ g j hc

/-- The first slice is the forget gate's pre-activation. -/
theorem zf_apply (i : S4096x1024.Idx) :
    val_main_v9 (F := Ideal) x0 x2 x3 x4 x5 x6 x7 x8 x9 x10 x11 x12 x13 x14 i = preact (rowOf x0 (i 0)) (rowOf x2 (i 0)) (matOf x3) (matOf x7) (vecOf x11) (i 1) := by
  rw [val_main_v9_apply]
  exact fused_apply x0 x2 x3 x4 x5 x6 x7 x8 x9 x10 x11 x12 x13 x14 0 (idx_main_v9 i) (i 0) (i 1) rfl
    (by show (i 1).val = 0 * 1024 + (i 1).val; omega)

/-- The second slice is the input gate's pre-activation. -/
theorem zi_apply (i : S4096x1024.Idx) :
    val_main_v10 (F := Ideal) x0 x2 x3 x4 x5 x6 x7 x8 x9 x10 x11 x12 x13 x14 i = preact (rowOf x0 (i 0)) (rowOf x2 (i 0)) (matOf x4) (matOf x8) (vecOf x12) (i 1) := by
  rw [val_main_v10_apply]
  exact fused_apply x0 x2 x3 x4 x5 x6 x7 x8 x9 x10 x11 x12 x13 x14 1 (idx_main_v10 i) (i 0) (i 1) rfl
    (by show 1024 + (i 1).val = 1 * 1024 + (i 1).val; omega)

/-- The third slice is the output gate's pre-activation. -/
theorem zo_apply (i : S4096x1024.Idx) :
    val_main_v11 (F := Ideal) x0 x2 x3 x4 x5 x6 x7 x8 x9 x10 x11 x12 x13 x14 i = preact (rowOf x0 (i 0)) (rowOf x2 (i 0)) (matOf x5) (matOf x9) (vecOf x13) (i 1) := by
  rw [val_main_v11_apply]
  exact fused_apply x0 x2 x3 x4 x5 x6 x7 x8 x9 x10 x11 x12 x13 x14 2 (idx_main_v11 i) (i 0) (i 1) rfl
    (by show 2048 + (i 1).val = 2 * 1024 + (i 1).val; omega)

/-- The fourth slice is the candidate's pre-activation. -/
theorem zc_apply (i : S4096x1024.Idx) :
    val_main_v12 (F := Ideal) x0 x2 x3 x4 x5 x6 x7 x8 x9 x10 x11 x12 x13 x14 i = preact (rowOf x0 (i 0)) (rowOf x2 (i 0)) (matOf x6) (matOf x10) (vecOf x14) (i 1) := by
  rw [val_main_v12_apply]
  exact fused_apply x0 x2 x3 x4 x5 x6 x7 x8 x9 x10 x11 x12 x13 x14 3 (idx_main_v12 i) (i 0) (i 1) rfl
    (by show 3072 + (i 1).val = 3 * 1024 + (i 1).val; omega)

/-- The forget gate: the clamp's first call. -/
theorem sigF_apply (i : S4096x1024.Idx) :
    val_main_v17 (F := Ideal) x0 x2 x3 x4 x5 x6 x7 x8 x9 x10 x11 x12 x13 x14 i = hardSigmoid (val_main_v9 (F := Ideal) x0 x2 x3 x4 x5 x6 x7 x8 x9 x10 x11 x12 x13 x14 i) :=
  clip_apply bcast_S_S4096x1024 (val_main_v9 (F := Ideal) x0 x2 x3 x4 x5 x6 x7 x8 x9 x10 x11 x12 x13 x14) i

/-- The input gate: the clamp's second call. -/
theorem sigI_apply (i : S4096x1024.Idx) :
    val_main_v22 (F := Ideal) x0 x2 x3 x4 x5 x6 x7 x8 x9 x10 x11 x12 x13 x14 i = hardSigmoid (val_main_v10 (F := Ideal) x0 x2 x3 x4 x5 x6 x7 x8 x9 x10 x11 x12 x13 x14 i) :=
  clip_apply bcast_S_S4096x1024 (val_main_v10 (F := Ideal) x0 x2 x3 x4 x5 x6 x7 x8 x9 x10 x11 x12 x13 x14) i

/-- The output gate: the clamp's third call. -/
theorem sigO_apply (i : S4096x1024.Idx) :
    val_main_v27 (F := Ideal) x0 x2 x3 x4 x5 x6 x7 x8 x9 x10 x11 x12 x13 x14 i = hardSigmoid (val_main_v11 (F := Ideal) x0 x2 x3 x4 x5 x6 x7 x8 x9 x10 x11 x12 x13 x14 i) :=
  clip_apply bcast_S_S4096x1024 (val_main_v11 (F := Ideal) x0 x2 x3 x4 x5 x6 x7 x8 x9 x10 x11 x12 x13 x14) i

/-- THE REFERENCE'S NEW CELL STATE is the cell step of the batch. -/
theorem cell_eq :
    val_main_v31 (F := Ideal) x0 x1 x2 x3 x4 x5 x6 x7 x8 x9 x10 x11 x12 x13 x14
      = newCell x0 x1 x2 x3 x4 x6 x7 x8 x10 x11 x12 x14 := by
  funext i
  rw [val_main_v31_apply, val_main_v29_apply, val_main_v30_apply, val_main_v28_apply, sigF_apply, sigI_apply,
    zf_apply, zi_apply, zc_apply]
  rfl

/-- THE REFERENCE'S NEW HIDDEN STATE is the hidden step of the batch. -/
theorem hidden_eq :
    val_main_v33 (F := Ideal) x0 x1 x2 x3 x4 x5 x6 x7 x8 x9 x10 x11 x12 x13 x14
      = newHidden x0 x1 x2 x3 x4 x5 x6 x7 x8 x9 x10 x11 x12 x13 x14 := by
  funext i
  rw [val_main_v33_apply, val_main_v32_apply, sigO_apply, zo_apply, cell_eq]
  rfl

end

end Cert.ReferenceIdeal.Cell

end
-- ==== Proof.lean ====
/-
  One step of an LSTM cell over a batch of 4096 rows with 1024 inputs and 1024 units: the kernel computes it tile by tile
  (16 tiles of 256 rows; per tile eight products of the tile with a whole weight matrix, operands narrowed to bf16, which at
  the ideal values is the identity), the reference by two products with the four gates' weight matrices joined side by side
  and four slices of the result.

  Both end at the same extended reals, entry by entry. For row r and unit j, gate g's pre-activation is
      z_g = (Σ_k x(r,k)·W_g(k,j) + Σ_k h(r,k)·U_g(k,j)) + b_g(j);
  the kernel reads it from row r mod 256 of tile r / 256 and the whole matrices, the reference from column g·1024 + j of the
  joined matrices, which is column j of piece g. The same hard sigmoid (min(1, max(0, 0.2·z + 0.5)), the same four
  binary32 constants on both sides), the same tanh and the same products and sum then give
      c' = σ(z_f)·c + σ(z_i)·tanh(z_c),   h' = σ(z_o)·tanh(c'),
  returned as (h', c', h'). No law of the extended reals beyond reading both sums over the same index set in the same
  order is used, so the finiteness of the inputs is never opened.

  The three frames are the generated ones (the reference's is its generated run with the results dropped); the
  idealization's ledger is empty.
-/
import proofs.«165920_j40956808135044_1_alg».proof.Defs
import proofs.«165920_j40956808135044_1_alg».proof.Proof.Gen.Kernel
import proofs.«165920_j40956808135044_1_alg».proof.Proof.Gen.Kernel.Skeleton
import proofs.«165920_j40956808135044_1_alg».proof.Proof.Gen.Kernel.Launch
import proofs.«165920_j40956808135044_1_alg».proof.Proof.Gen.Kernel.Points
import proofs.«165920_j40956808135044_1_alg».proof.Proof.Gen.Kernel.Frame
import proofs.«165920_j40956808135044_1_alg».proof.Proof.Gen.KernelIdeal
import proofs.«165920_j40956808135044_1_alg».proof.Proof.Gen.KernelIdeal.Skeleton
import proofs.«165920_j40956808135044_1_alg».proof.Proof.Gen.KernelIdeal.Launch
import proofs.«165920_j40956808135044_1_alg».proof.Proof.Gen.KernelIdeal.Points
import proofs.«165920_j40956808135044_1_alg».proof.Proof.Gen.KernelIdeal.Frame
import proofs.«165920_j40956808135044_1_alg».proof.Proof.Gen.KernelIdeal.Value
import proofs.«165920_j40956808135044_1_alg».proof.Proof.Gen.ReferenceIdeal
import proofs.«165920_j40956808135044_1_alg».proof.Proof.Gen.ReferenceIdeal.Run
import proofs.«165920_j40956808135044_1_alg».proof.Proof.Gen.ReferenceIdeal.Read
import proofs.«165920_j40956808135044_1_alg».proof.Proof.Gen.Pre_finite_inputs
import proofs.«165920_j40956808135044_1_alg».proof.Proof.KernelBlocks
import proofs.«165920_j40956808135044_1_alg».proof.Proof.RefCell
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the fifteen arguments, the kernel's three result arrays (the batch's new hidden state,
    new cell state, new hidden state of the arguments as launched) are what the reference's stages compute. -/
theorem algebraic : Cert.algebraic_KernelIdeal_ReferenceIdeal := by
  intro m ρ m' ρ' _ hagree
  refine ⟨fun c => Cert.KernelIdeal.Blocks.hiddenOf m c, fun c => Cert.KernelIdeal.Blocks.cellOf m c,
    fun c => Cert.KernelIdeal.Blocks.hiddenOf m c, Cert.KernelIdeal.Blocks.run m ρ, ?_⟩
  have hH : ∀ c, Cert.ReferenceIdeal.Value.res_main_v33 m' c = Cert.KernelIdeal.Blocks.hiddenOf m c := fun c => by
    obtain ⟨a0, a1, a2, a3, a4, a5, a6, a7, a8, a9, a10, a11, a12, a13, a14⟩ := hagree c
    rw [Cert.ReferenceIdeal.Read.val_main_v33_eq, Cert.ReferenceIdeal.Cell.hidden_eq, a0, a1, a2, a3, a4, a5, a6, a7, a8, a9, a10, a11, a12, a13, a14]
  have hC : ∀ c, Cert.ReferenceIdeal.Value.res_main_v31 m' c = Cert.KernelIdeal.Blocks.cellOf m c := fun c => by
    obtain ⟨a0, a1, a2, a3, a4, a5, a6, a7, a8, a9, a10, a11, a12, a13, a14⟩ := hagree c
    rw [Cert.ReferenceIdeal.Read.val_main_v31_eq, Cert.ReferenceIdeal.Cell.cell_eq, a0, a1, a2, a3, a4, a6, a7, a8, a10, a11, a12, a14]
  exact (θ_run Cert.ReferenceIdeal.defs _ _).mono
    (fun _ h c => ⟨(h c).1.trans (hH c), (h c).2.1.trans (hC c), (h c).2.2.1.trans (hH c), (h c).2.2.2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
